-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 122
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x40, .f32⟩
  | .hbm, ⟨112, _⟩ => ⟨S1700000x1, .f32⟩
  | .hbm, ⟨113, _⟩ => ⟨S1700000x40, .f32⟩
  | .hbm, ⟨114, _⟩ => ⟨S1700000x40, .f32⟩
  | .hbm, ⟨115, _⟩ => ⟨S_, .f32⟩
  | .hbm, ⟨116, _⟩ => ⟨S100000x40, .f32⟩
  | .hbm, ⟨117, _⟩ => ⟨S1700000x1, .i32⟩
  | .hbm, ⟨118, _⟩ => ⟨S100000x40, .f32⟩
  | .hbm, ⟨119, _⟩ => ⟨S1x40, .f32⟩
  | .hbm, ⟨120, _⟩ => ⟨S100000x40, .f32⟩
  | .hbm, ⟨121, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x40, .f32⟩
  | .local _ .vmem, ⟨8, _⟩ => ⟨S10000x40, .f32⟩
  | .local _ .vmem, ⟨9, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S100000x40.size a
  hwx1_2 : ∀ i : grid1.Coords, EltTy.bits .f32 = 32 ∨ (Rect.block (s := S100000x40) S10000x40.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x40, .f32⟩
  | .hbm, ⟨112, _⟩ => ⟨S1700000x1, .f32⟩
  | .hbm, ⟨113, _⟩ => ⟨S1700000x40, .f32⟩
  | .hbm, ⟨114, _⟩ => ⟨S1700000x40, .f32⟩
  | .hbm, ⟨115, _⟩ => ⟨S_, .f32⟩
  | .hbm, ⟨116, _⟩ => ⟨S100000x40, .f32⟩
  | .hbm, ⟨117, _⟩ => ⟨S1700000x1, .i32⟩
  | .hbm, ⟨118, _⟩ => ⟨S100000x40, .f32⟩
  | .hbm, ⟨119, _⟩ => ⟨S1x40, .f32⟩
  | .hbm, ⟨120, _⟩ => ⟨S100000x40, .f32⟩
  | .hbm, ⟨121, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
import proofs.«149620_j89807766159535_1_alg».proof.KernelIdeal

/-!
# The graph convolution's aggregation, as functions of the projected features

Both programs build the edge lists the same way (the given edges followed by one self loop per node), project the node
features by a weight matrix, and then aggregate: the degree of a node is the number of edges that end in it, every
edge `(r, c)` is weighted by `deg(r)^(-1/2) · deg(c)^(-1/2)` (zero where the degree is not positive), the weighted
source rows are summed into their target rows, and the bias is added. The first layer is followed by `max(·, 0)`.

The projection is the only step the two programs do differently, so everything after it is stated here once, as a
function of the projected features `h`, the two edge lists and the bias: `hidden` for the first layer (with its
`relu`), `output` for the second. Nothing below ever opens these functions.
-/

noncomputable section

namespace Cert.Gcn

open Idealize.ShloMosaic Cert.KernelIdeal Cert.KernelIdeal.Facts₀ Cert.KernelIdeal.Facts

variable {F : FTy → Type} [FloatOps F] [Cert.KernelIdeal.Facts]

/-- The sources (`k = 0`) or targets (`k = 1`) of the edges, followed by the node numbers `0 … N-1` (the self loops). -/
def sources (ei : (⟨S2x1600000, .i32⟩ : BufTy).Contents (Elt F)) : (⟨S1700000, .i32⟩ : BufTy).Contents (Elt F) :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

def targets (ei : (⟨S2x1600000, .i32⟩ : BufTy).Contents (Elt F)) : (⟨S1700000, .i32⟩ : BufTy).Contents (Elt F) :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- A node number as jnp indexes with it: a negative one counts from the end; laid out as a column of start indices. -/
def wrapped (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The number of edges that end in each node: ones summed into the targets' places. -/
def degree (col : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- `deg^(-1/2)` where the degree is positive, zero elsewhere. -/
def invSqrtDegree (col : (⟨S1700000, .i32⟩ : BufTy).Contents (Elt F)) : (⟨S100000, .f32⟩ : BufTy).Contents (Elt F) :=
  select (cmpf .ogt (degree col) (broadcastInDim S100000 ![] bcast_S_S100000 (constant S_ .f32 0x00000000#32)))
    (Host.rsqrt (degree col))
    (broadcastInDim S100000 ![] bcast_S_S100000 (id (constant S_ .f32 0x00000000#32)))

/-- The weight of each edge: the product of the two ends' `deg^(-1/2)`. -/
def edgeWeight (row col : (⟨S1700000, .i32⟩ : BufTy).Contents (Elt F)) : (⟨S1700000, .f32⟩ : BufTy).Contents (Elt F) :=
  mulf (Host.gather gather_S100000_S1700000x1_S1700000_n_0_n_n_0_1_1 (invSqrtDegree col) (wrapped row))
    (Host.gather gather_S100000_S1700000x1_S1700000_n_0_n_n_0_1_1 (invSqrtDegree col) (wrapped col))

/-- The first layer after its projection `h`: weighted source rows summed into the targets, plus bias, then `max(·, 0)`. -/
def hidden (h : (⟨S100000x64, .f32⟩ : BufTy).Contents (Elt F)) (row col : (⟨S1700000, .i32⟩ : BufTy).Contents (Elt F))
    (b : (⟨S64, .f32⟩ : BufTy).Contents (Elt F)) : (⟨S100000x64, .f32⟩ : BufTy).Contents (Elt F) :=
  maximumf
    (addf
      (Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 col)
        (mulf (Host.gather gather_S100000x64_S1700000x1_S1700000x64_1_0_n_n_0_1_164 h (wrapped row))
          (broadcastInDim S1700000x64 ![0, 1] bcast_S1700000x1_S1700000x64_0_1
            (broadcastInDim S1700000x1 ![0] bcast_S1700000_S1700000x1_0 (edgeWeight row col)))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second layer after its projection `h`: weighted source rows summed into the targets, plus bias. -/
def output (h : (⟨S100000x40, .f32⟩ : BufTy).Contents (Elt F)) (row col : (⟨S1700000, .i32⟩ : BufTy).Contents (Elt F))
    (b : (⟨S40, .f32⟩ : BufTy).Contents (Elt F)) : (⟨S100000x40, .f32⟩ : BufTy).Contents (Elt F) :=
  addf
    (Host.scatterAdd scatter_S100000x40_S1700000x1_S1700000x40_1_0_0_1
      (broadcastInDim S100000x40 ![] bcast_S_S100000x40 (constant S_ .f32 0x00000000#32))
      (broadcastInDim S1700000x1 ![0] bcast_S1700000_S1700000x1_0 col)
      (mulf (Host.gather gather_S100000x40_S1700000x1_S1700000x40_1_0_n_n_0_1_140 h (wrapped row))
        (broadcastInDim S1700000x40 ![0, 1] bcast_S1700000x1_S1700000x40_0_1
          (broadcastInDim S1700000x1 ![0] bcast_S1700000_S1700000x1_0 (edgeWeight row col)))))
    (broadcastInDim S100000x40 ![0, 1] bcast_S1x40_S100000x40_0_1 (broadcastInDim S1x40 ![1] bcast_S40_S1x40_1 b))

/-- The whole forward pass: both layers, each a projection by its weight followed by its aggregation. -/
def forward (x : (⟨S100000x128, .f32⟩ : BufTy).Contents (Elt F)) (ei : (⟨S2x1600000, .i32⟩ : BufTy).Contents (Elt F))
    (w1 : (⟨S128x64, .f32⟩ : BufTy).Contents (Elt F)) (b1 : (⟨S64, .f32⟩ : BufTy).Contents (Elt F))
    (w2 : (⟨S64x40, .f32⟩ : BufTy).Contents (Elt F)) (b2 : (⟨S40, .f32⟩ : BufTy).Contents (Elt F)) :
    (⟨S100000x40, .f32⟩ : BufTy).Contents (Elt F) :=
  output
    (Host.dotGeneral (F := F) (φ₁ := .f32) (φ₂ := .f32) (DotDims.plain 100000 64 40) none
      (hidden (Host.dotGeneral (F := F) (φ₁ := .f32) (φ₂ := .f32) (DotDims.plain 100000 128 64) none x w1) (sources ei) (targets ei) b1)
      w2)
    (sources ei) (targets ei) b2

end Cert.Gcn

end
-- ==== Proof.KHost.lean ====
import proofs.«149620_j89807766159535_1_alg».proof.Proof.Gen.KernelIdeal.Frame
import proofs.«149620_j89807766159535_1_alg».proof.Proof.Spec
import Idealize.ShloMosaic.Lib.StableHlo.Run

/-!
# The host lines of the kernel's program, stretch by stretch

The kernel's @main is three stretches of host lines around its two regions. Read from any buffer contents `V`:
the first stretch builds the two edge lists from the edge array; the second is the first layer's aggregation
(`Cert.Gcn.hidden`) of the first region's result; the third the second layer's (`Cert.Gcn.output`) of the second
region's. Each stretch leaves alone the buffers it does not write.
-/

set_option maxRecDepth 16384

noncomputable section

namespace Cert.KernelIdeal.Host

open Idealize.ShloMosaic Idealize.ShloMosaic.TcCoe Idealize.ShloMosaic.StableHlo Idealize.SL.Sem
open Cert.KernelIdeal Cert.KernelIdeal.Gen Cert.Gcn

variable {F : FTy → Type} [FloatOps F]
variable (V : Valuation τ sig (Elt F))

/-! ## The first stretch: the edge lists -/

theorem pre_sources : after hostOps0 V (Proc.devRef .tc main_v3) = sources (V (Proc.devRef .tc main_arg1)) := by
  simp only [hostOps0]
  after_results <;> rfl

theorem pre_targets : after hostOps0 V (Proc.devRef .tc main_v6) = targets (V (Proc.devRef .tc main_arg1)) := by
  simp only [hostOps0]
  after_results <;> rfl

theorem pre_keep_arg0 : after hostOps0 V (Proc.devRef .tc main_arg0) = V (Proc.devRef .tc main_arg0) := by
  simp only [hostOps0]
  after_results_simp <;> rfl
theorem pre_keep_arg2 : after hostOps0 V (Proc.devRef .tc main_arg2) = V (Proc.devRef .tc main_arg2) := by
  simp only [hostOps0]
  after_results_simp <;> rfl
theorem pre_keep_arg3 : after hostOps0 V (Proc.devRef .tc main_arg3) = V (Proc.devRef .tc main_arg3) := by
  simp only [hostOps0]
  after_results_simp <;> rfl
theorem pre_keep_arg4 : after hostOps0 V (Proc.devRef .tc main_arg4) = V (Proc.devRef .tc main_arg4) := by
  simp only [hostOps0]
  after_results_simp <;> rfl
theorem pre_keep_arg5 : after hostOps0 V (Proc.devRef .tc main_arg5) = V (Proc.devRef .tc main_arg5) := by
  simp only [hostOps0]
  after_results_simp <;> rfl

/-! ## The second stretch: the first layer after its projection -/

/-- The second stretch's lines from `V`. -/
abbrev afterMid : Valuation τ sig (Elt F) := after hostOps1_3 (after hostOps1_2 (after hostOps1_1 (after hostOps1 V)))

theorem mid_hidden : afterMid V (Proc.devRef .tc main_v47)
    = hidden (V (Proc.devRef .tc main_v7)) (V (Proc.devRef .tc main_v3)) (V (Proc.devRef .tc main_v6)) (V (Proc.devRef .tc main_arg3)) := by
  simp only [afterMid, hostOps1, hostOps1_1, hostOps1_2, hostOps1_3]
  after_results_simp <;> rfl

theorem mid_keep_v3 : afterMid V (Proc.devRef .tc main_v3) = V (Proc.devRef .tc main_v3) := by
  simp only [afterMid, hostOps1, hostOps1_1, hostOps1_2, hostOps1_3]
  after_results_simp <;> rfl
theorem mid_keep_v6 : afterMid V (Proc.devRef .tc main_v6) = V (Proc.devRef .tc main_v6) := by
  simp only [afterMid, hostOps1, hostOps1_1, hostOps1_2, hostOps1_3]
  after_results_simp <;> rfl
theorem mid_keep_arg4 : afterMid V (Proc.devRef .tc main_arg4) = V (Proc.devRef .tc main_arg4) := by
  simp only [afterMid, hostOps1, hostOps1_1, hostOps1_2, hostOps1_3]
  after_results_simp <;> rfl
theorem mid_keep_arg5 : afterMid V (Proc.devRef .tc main_arg5) = V (Proc.devRef .tc main_arg5) := by
  simp only [afterMid, hostOps1, hostOps1_1, hostOps1_2, hostOps1_3]
  after_results_simp <;> rfl

/-! ## The third stretch: the second layer after its projection -/

/-- The third stretch's lines from `V`. -/
abbrev afterTail : Valuation τ sig (Elt F) := after hostOps2_2 (after hostOps2_1 (after hostOps2 V))

theorem tail_output : afterTail V (Proc.devRef .tc main_v87)
    = output (V (Proc.devRef .tc main_v48)) (V (Proc.devRef .tc main_v3)) (V (Proc.devRef .tc main_v6)) (V (Proc.devRef .tc main_arg5)) := by
  simp only [afterTail, hostOps2, hostOps2_1, hostOps2_2]
  after_results_simp <;> rfl

end Cert.KernelIdeal.Host

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Tile.lean ====
import proofs.«149620_j89807766159535_1_alg».proof.Proof.LibContract

/-!
# A row tile of a matrix product is rows of the whole product

Rows `r₀ … r₀ + M - 1` of `x · w` depend on the same rows of `x` only. So a kernel that multiplies a tile of `M` rows
of `x` (narrowed to bf16, which changes nothing on the extended reals) into the whole weight, accumulating from zero,
leaves at entry `(p, q)` of the tile entry `(r, q)` of the host's whole product, `r` being row `p` of the tile as a
row of `x`: both are `∑ k, x[r, k] · w[k, q]`.
-/

noncomputable section

namespace Cert.Gcn

open Idealize.ShloMosaic Idealize.ShloMosaic.ValueIdx

/-- Entry `(p, q)` of the tile's product is entry `(r, q)` of the whole product when row `p` of the tile `xb` is row
    `r` of `x` and column `q` of the tile's weight `wb` is column `q` of `w`. -/
theorem tile_entry (R M K N : Nat) (h1 : FTy.bits .bf16 < FTy.bits .f32)
    (xb : FVec Ideal (⟨2, ![M, K]⟩ : Shape) .f32) (wb : FVec Ideal (⟨2, ![K, N]⟩ : Shape) .f32)
    (x : FVec Ideal (⟨2, ![R, K]⟩ : Shape) .f32) (w : FVec Ideal (⟨2, ![K, N]⟩ : Shape) .f32)
    (p : Fin M) (q : Fin N) (r : Fin R)
    (hx : ∀ k : Fin K, xb (ix2 p k) = x (ix2 r k)) (hw : ∀ k : Fin K, wb (ix2 k q) = w (ix2 k q)) :
    matmul (DotDims.plain M K N) none (truncf .bf16 xb h1) (truncf .bf16 wb h1)
        (constant (F := Ideal) (⟨2, ![M, N]⟩ : Shape) .f32 0x00000000#32) (ix2 p q)
      = Host.dotGeneral (DotDims.plain R K N) none x w (ix2 r q) := by
  rw [Cert.LibDense.matmul_plain_zero_apply, Cert.LibDense.dotGeneral_plain_apply]
  refine Finset.sum_congr rfl fun k _ => ?_
  rw [truncf_apply, truncf_apply, hx k, hw k]

end Cert.Gcn

end
-- ==== Proof.Proj0.lean ====
import proofs.«149620_j89807766159535_1_alg».proof.Proof.Gen.KernelIdeal.Frame
import proofs.«149620_j89807766159535_1_alg».proof.Proof.Tile
import Idealize.ShloMosaic.Lib.Pipeline.Value
import Idealize.ShloMosaic.Lib.ValueIdx

/-!
# The first projection: what the first kernel region leaves in its result array

The region walks the 100000 rows of `x` in ten tiles of 10000 rows; at tile `t` it multiplies rows
`10000 t … 10000 t + 9999` of `x` into the whole 128 × 64 weight and writes the product back as the same rows of
the result. Each written block is therefore a block of ONE array, the whole product `x · w`, and the ten blocks
cover the result: on the extended reals the result array ends holding the host's `dot_general` of the two arrays
as the region found them.
-/

set_option maxRecDepth 16384

noncomputable section

namespace Cert.KernelIdeal.Proj0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of the two arrays the region reads, as it finds them. -/
abbrev product (c : Dev nD) : S100000x64.Idx → Elt Ideal .f32 :=
  Host.dotGeneral (F := Ideal) (φ₁ := .f32) (φ₂ := .f32) (DotDims.plain 100000 128 64) none (V c main_arg0 : FVec Ideal S100000x128 .f32) (V c main_arg2 : FVec Ideal S128x64 .f32)

/-- The block indices over the grid: at tile `t` the rows' window and the result's window are at block `(t, 0)`, the
    weight's at `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e00, e01, e10, e11, e20, e21⟩ := block_indices t
  have ht : t.val < 10 := lt_of_lt_of_eq t.isLt N_0
  funext j
  obtain ⟨p, q, rfl⟩ : ∃ (p : Fin 10000) (q : Fin 64), j = ix2 p q := ⟨j 0, j 1, eq_ix2 j⟩
  have hp := p.isLt
  show k0_pay1 (iblk0 V c 0 t) (iblk0 V c 1 t) (ix2 p q) = product V c (((cfg0.win 2).blk t).view.emb (ix2 p q))
  have hr : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hr]
  unfold k0_pay1
  refine Cert.Gcn.tile_entry 100000 10000 128 64 _ _ _ _ _ p q _ (fun k => ?_) (fun k => ?_)
  · show V c main_arg0 (((cfg0.win 0).blk t).view.emb (ix2 p k)) = V c main_arg0 (ix2 _ k)
    congr 1
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c main_arg2 (((cfg0.win 1).blk t).view.emb (ix2 k q)) = V c main_arg2 (ix2 k q)
    congr 1
    funext a; apply Fin.ext
    match a with
    | ⟨0, _⟩ => show win0_1.index t (0 : Fin 2) * 128 + 1 * k.val = k.val; omega
    | ⟨1, _⟩ => show win0_1.index t (1 : Fin 2) * 64 + 1 * q.val = q.val; omega

/-- An index of the result array is in tile `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v7).slice (win0_2.rect t)).set ↔ _
  rw [View.set_slice_whole, Rect.mem_set_unit]
  exact Iff.rfl

/-- Row `r` of the result is written by tile `r / 10000`: the ten blocks cover the array. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by omega⟩
  have htv : t.val = (i 0).val / 10000 := rfl
  obtain ⟨e00, e01, e10, e11, e20, e21⟩ := block_indices t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the region: the whole product. -/
theorem array_eq (c : Dev nD) : (dat0 V c).arrAt 2 cfg0.N = product V c :=
  (dat0 V c).arrAt_eq_of_cover 2 (product V c) (fun t _ => flushed_eq V c t) (covered)

end Cert.KernelIdeal.Proj0

end
-- ==== Proof.Proj1.lean ====
import proofs.«149620_j89807766159535_1_alg».proof.Proof.Gen.KernelIdeal.Frame
import proofs.«149620_j89807766159535_1_alg».proof.Proof.Tile
import Idealize.ShloMosaic.Lib.Pipeline.Value
import Idealize.ShloMosaic.Lib.ValueIdx

/-!
# The second projection: what the second kernel region leaves in its result array

The region walks the 100000 rows of the hidden features `h` in ten tiles of 10000 rows; at tile `t` it multiplies
rows `10000 t … 10000 t + 9999` of `h` into the whole 64 × 40 weight and writes the product back as the same rows of
the result. As for the first projection, each written block is a block of the whole product `h · w` and the ten
blocks cover the result: on the extended reals the result array ends holding the host's `dot_general` of the two
arrays as the region found them. (The body's reshape of its tile to its own shape changes nothing.)
-/

set_option maxRecDepth 16384

noncomputable section

namespace Cert.KernelIdeal.Proj1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of the two arrays the region reads, as it finds them. -/
abbrev product (c : Dev nD) : S100000x40.Idx → Elt Ideal .f32 :=
  Host.dotGeneral (F := Ideal) (φ₁ := .f32) (φ₂ := .f32) (DotDims.plain 100000 64 40) none (V c main_v47 : FVec Ideal S100000x64 .f32) (V c main_arg4 : FVec Ideal S64x40 .f32)

/-- The block indices over the grid: at tile `t` the rows' window and the result's window are at block `(t, 0)`, the
    weight's at `(0, 0)`. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What tile `t` writes back is block `t` of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x40) zero_offsets]
  obtain ⟨e00, e01, e10, e11, e20, e21⟩ := block_indices t
  have ht : t.val < 10 := lt_of_lt_of_eq t.isLt N_1
  funext j
  obtain ⟨p, q, rfl⟩ : ∃ (p : Fin 10000) (q : Fin 40), j = ix2 p q := ⟨j 0, j 1, eq_ix2 j⟩
  have hp := p.isLt
  show k1_pay1 (iblk1 V c 0 t) (iblk1 V c 1 t) (ix2 p q) = product V c (((cfg1.win 2).blk t).view.emb (ix2 p q))
  have hr : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 40 + 1 * q.val = q.val; omega
  rw [hr]
  unfold k1_pay1
  refine Cert.Gcn.tile_entry 100000 10000 64 40 _ _ _ _ _ p q _ (fun k => ?_) (fun k => ?_)
  · rw [shapeCast_self]
    show V c main_v47 (((cfg1.win 0).blk t).view.emb (ix2 p k)) = V c main_v47 (ix2 _ k)
    congr 1
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  · show V c main_arg4 (((cfg1.win 1).blk t).view.emb (ix2 k q)) = V c main_arg4 (ix2 k q)
    congr 1
    funext a; apply Fin.ext
    match a with
    | ⟨0, _⟩ => show win1_1.index t (0 : Fin 2) * 64 + 1 * k.val = k.val; omega
    | ⟨1, _⟩ => show win1_1.index t (1 : Fin 2) * 40 + 1 * q.val = q.val; omega

/-- An index of the result array is in tile `t`'s block iff each coordinate is in the block's range on its axis. -/
theorem mem_block (t : Fin cfg1.N) (i : S100000x40.Idx) :
    i ∈ ((cfg1.win 2).blk t).view.set ↔ ∀ a : Fin 2, win1_2.index t a * S10000x40.size a ≤ (i a).val ∧ (i a).val < win1_2.index t a * S10000x40.size a + S10000x40.size a := by
  show i ∈ ((View.whole main_v48).slice (win1_2.rect t)).set ↔ _
  rw [View.set_slice_whole, Rect.mem_set_unit]
  exact Iff.rfl

/-- Row `r` of the result is written by tile `r / 10000`: the ten blocks cover the array. -/
theorem covered (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 10 := N_1
  let t : Fin cfg1.N := ⟨(i 0).val / 10000, by omega⟩
  have htv : t.val = (i 0).val / 10000 := rfl
  obtain ⟨e00, e01, e10, e11, e20, e21⟩ := block_indices t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 40 ≤ (i 1).val ∧ (i 1).val < win1_2.index t (1 : Fin 2) * 40 + 40; omega

/-- The result array after the region: the whole product. -/
theorem array_eq (c : Dev nD) : (dat1 V c).arrAt 2 cfg1.N = product V c :=
  (dat1 V c).arrAt_eq_of_cover 2 (product V c) (fun t _ => flushed_eq V c t) (covered)

end Cert.KernelIdeal.Proj1

end
-- ==== Proof.KValue.lean ====
import proofs.«149620_j89807766159535_1_alg».proof.Proof.KernelRun
import proofs.«149620_j89807766159535_1_alg».proof.Proof.KHost
import proofs.«149620_j89807766159535_1_alg».proof.Proof.Proj0
import proofs.«149620_j89807766159535_1_alg».proof.Proof.Proj1

/-!
# The kernel's result on the extended reals

The buffer contents at each boundary of the kernel's @main, followed from the launch memory to the return: the first
stretch builds the edge lists; the first region leaves `x · w1` (as the host's `dot_general` of the two arguments); the
second stretch is the first layer's aggregation of that; the second region leaves the hidden features times `w2`; the
third stretch is the second layer's aggregation. So the result buffer ends holding `Cert.Gcn.forward` of the
arguments, and the run of the program says so.
-/

set_option maxRecDepth 16384

noncomputable section

namespace Cert.KernelIdeal.Result

open Idealize.ShloMosaic Idealize.ShloMosaic.TcCoe Idealize.ShloMosaic.StableHlo Idealize.SL.Sem
open Cert.KernelIdeal Cert.KernelIdeal.Gen Cert.KernelIdeal.Host Cert.Gcn

variable (m : (ℓ : Loc nD τ sig) → Buf (Elt Ideal) ℓ) (ρ : Dev nD → PrngReg)

/-! ## At the first region's entry and exit -/

theorem entry0_x (c : Dev nD) : V1 m ρ c main_arg0 = m ((c : Thread nD τ).loc main_arg0) :=
  pre_keep_arg0 (W0 m ρ c)
theorem entry0_w (c : Dev nD) : V1 m ρ c main_arg2 = m ((c : Thread nD τ).loc main_arg2) :=
  pre_keep_arg2 (W0 m ρ c)

/-- The first region's result array: the product of the first two arguments. -/
theorem exit0_h (c : Dev nD) : W2 m ρ c (Proc.devRef .tc main_v7)
    = Host.dotGeneral (F := Ideal) (φ₁ := .f32) (φ₂ := .f32) (DotDims.plain 100000 128 64) none
        (m ((c : Thread nD τ).loc main_arg0)) (m ((c : Thread nD τ).loc main_arg2)) := by
  refine (W2_arr m ρ c 2).trans ((Proj0.array_eq (V1 m ρ) c).trans ?_)
  show Host.dotGeneral (F := Ideal) (φ₁ := .f32) (φ₂ := .f32) (DotDims.plain 100000 128 64) none (V1 m ρ c main_arg0) (V1 m ρ c main_arg2) = _
  rw [entry0_x, entry0_w]

theorem exit0_sources (c : Dev nD) : W2 m ρ c (Proc.devRef .tc main_v3) = sources (m ((c : Thread nD τ).loc main_arg1)) :=
  (W2_of_ne m ρ c main_v3 (by decide)).trans (pre_sources (W0 m ρ c))
theorem exit0_targets (c : Dev nD) : W2 m ρ c (Proc.devRef .tc main_v6) = targets (m ((c : Thread nD τ).loc main_arg1)) :=
  (W2_of_ne m ρ c main_v6 (by decide)).trans (pre_targets (W0 m ρ c))
theorem exit0_b1 (c : Dev nD) : W2 m ρ c (Proc.devRef .tc main_arg3) = m ((c : Thread nD τ).loc main_arg3) :=
  (W2_of_ne m ρ c main_arg3 (by decide)).trans (pre_keep_arg3 (W0 m ρ c))
theorem exit0_w2 (c : Dev nD) : W2 m ρ c (Proc.devRef .tc main_arg4) = m ((c : Thread nD τ).loc main_arg4) :=
  (W2_of_ne m ρ c main_arg4 (by decide)).trans (pre_keep_arg4 (W0 m ρ c))
theorem exit0_b2 (c : Dev nD) : W2 m ρ c (Proc.devRef .tc main_arg5) = m ((c : Thread nD τ).loc main_arg5) :=
  (W2_of_ne m ρ c main_arg5 (by decide)).trans (pre_keep_arg5 (W0 m ρ c))

/-! ## At the second region's entry and exit -/

/-- The hidden features the second region is entered with. -/
theorem entry1_h (c : Dev nD) : V6 m ρ c main_v47
    = hidden (Host.dotGeneral (F := Ideal) (φ₁ := .f32) (φ₂ := .f32) (DotDims.plain 100000 128 64) none
          (m ((c : Thread nD τ).loc main_arg0)) (m ((c : Thread nD τ).loc main_arg2)))
        (sources (m ((c : Thread nD τ).loc main_arg1))) (targets (m ((c : Thread nD τ).loc main_arg1)))
        (m ((c : Thread nD τ).loc main_arg3)) := by
  refine (mid_hidden (W2 m ρ c)).trans ?_
  rw [exit0_h, exit0_sources, exit0_targets, exit0_b1]
theorem entry1_w (c : Dev nD) : V6 m ρ c main_arg4 = m ((c : Thread nD τ).loc main_arg4) :=
  (mid_keep_arg4 (W2 m ρ c)).trans (exit0_w2 m ρ c)

/-- The second region's result array: the hidden features times the second weight. -/
theorem exit1_h (c : Dev nD) : W7 m ρ c (Proc.devRef .tc main_v48)
    = Host.dotGeneral (F := Ideal) (φ₁ := .f32) (φ₂ := .f32) (DotDims.plain 100000 64 40) none
        (hidden (Host.dotGeneral (F := Ideal) (φ₁ := .f32) (φ₂ := .f32) (DotDims.plain 100000 128 64) none
            (m ((c : Thread nD τ).loc main_arg0)) (m ((c : Thread nD τ).loc main_arg2)))
          (sources (m ((c : Thread nD τ).loc main_arg1))) (targets (m ((c : Thread nD τ).loc main_arg1)))
          (m ((c : Thread nD τ).loc main_arg3)))
        (m ((c : Thread nD τ).loc main_arg4)) := by
  refine (W7_arr m ρ c 2).trans ((Proj1.array_eq (V6 m ρ) c).trans ?_)
  show Host.dotGeneral (F := Ideal) (φ₁ := .f32) (φ₂ := .f32) (DotDims.plain 100000 64 40) none (V6 m ρ c main_v47) (V6 m ρ c main_arg4) = _
  rw [entry1_h, entry1_w]

theorem exit1_sources (c : Dev nD) : W7 m ρ c (Proc.devRef .tc main_v3) = sources (m ((c : Thread nD τ).loc main_arg1)) :=
  (W7_of_ne m ρ c main_v3 (by decide)).trans ((mid_keep_v3 (W2 m ρ c)).trans (exit0_sources m ρ c))
theorem exit1_targets (c : Dev nD) : W7 m ρ c (Proc.devRef .tc main_v6) = targets (m ((c : Thread nD τ).loc main_arg1)) :=
  (W7_of_ne m ρ c main_v6 (by decide)).trans ((mid_keep_v6 (W2 m ρ c)).trans (exit0_targets m ρ c))
theorem exit1_b2 (c : Dev nD) : W7 m ρ c (Proc.devRef .tc main_arg5) = m ((c : Thread nD τ).loc main_arg5) :=
  (W7_of_ne m ρ c main_arg5 (by decide)).trans ((mid_keep_arg5 (W2 m ρ c)).trans (exit0_b2 m ρ c))

/-! ## At the return -/

/-- The result buffer at the last boundary: the forward pass of the arguments. -/
theorem result_eq (c : Dev nD) : W10 m ρ c (Proc.devRef .tc main_v87)
    = forward (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (tail_output (W7 m ρ c)).trans ?_
  rw [exit1_h, exit1_sources, exit1_targets, exit1_b2]
  rfl

/-- The run of the kernel's program with its result named. -/
theorem run : θ_run defs (onTc (τ := τ) (main (F := Ideal))) ⟨m, fun _ => 0, ρ⟩ (fun r => ∀ c : Dev nD,
      r.2.mem ((c.tc : Thread nD τ).loc main_v87)
        = forward (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (run_main m ρ)

end Cert.KernelIdeal.Result

end
-- ==== Proof.RefValue.lean ====
import proofs.«149620_j89807766159535_1_alg».proof.Proof.RefRun
import proofs.«149620_j89807766159535_1_alg».proof.Proof.Spec
import proofs.«149620_j89807766159535_1_alg».proof.Proof.Gen.KernelIdeal

/-!
# The reference's result is the same forward pass

The reference's @main is, line for line, the kernel program's host lines, with a `dot_general` where the kernel
program launches a region. So its composed result term is `Cert.Gcn.forward` of its arguments: the same edge lists,
the same two aggregations, around the two products.
-/

set_option maxRecDepth 16384

noncomputable section

namespace Cert.ReferenceIdeal.Result

open Idealize.ShloMosaic Idealize.ShloMosaic.TcCoe Idealize.SL.Sem
open Cert.ReferenceIdeal

variable {F : FTy → Type} [FloatOps F]

theorem result_eq (m : (ℓ : Loc nD τ sig) → Buf (Elt F) ℓ) (c : Dev nD) :
    Cert.ReferenceIdeal.ValueP.res_main_v87 m c
      = Cert.Gcn.forward (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v87 Cert.Gcn.forward Cert.Gcn.output Cert.Gcn.hidden Cert.Gcn.edgeWeight
    Cert.Gcn.invSqrtDegree Cert.Gcn.degree Cert.Gcn.wrapped Cert.Gcn.sources Cert.Gcn.targets
  rfl

end Cert.ReferenceIdeal.Result

end
-- ==== Proof.lean ====
/-
  A two-layer graph convolution, `out = Â · relu(Â · (x · w1) + b1) · w2 + b2` with `Â` the degree-normalized adjacency
  (self loops added), against the same computation written in plain jnp.

  The kernel program differs from the reference in one thing only: each projection `· w` is a Pallas region that walks
  the 100000 node rows in ten tiles of 10000, multiplying a tile (narrowed to bf16, the identity on the extended
  reals) into the whole weight from a zero accumulator, where the reference has one `dot_general`. Entry `(r, q)` of
  either is `∑ k, x[r, k] · w[k, q]` (`Cert.Gcn.tile_entry`), the tiles' blocks cover the result array
  (`Proj0.array_eq`, `Proj1.array_eq`), and every other line of the two programs is the same line: the edge lists,
  the degrees, the edge weights, the gather of source rows, the scatter-add into target rows, bias and relu
  (`Cert.Gcn.hidden`, `Cert.Gcn.output`, never opened). So both programs end with `Cert.Gcn.forward` of the arguments
  (`Cert.KernelIdeal.Result.run`, `Cert.ReferenceIdeal.Result.result_eq`); no law of the extended reals beyond the
  reading of the two products as the same finite sum is used, and the precondition is not opened.

  The frames of the two kernel programs are the generated ones; the reference's is its run with the result dropped;
  the ideal pass rewrote nothing, so `preserves` is `True`.
-/
import proofs.«149620_j89807766159535_1_alg».proof.Defs
import proofs.«149620_j89807766159535_1_alg».proof.Proof.Gen.Kernel
import proofs.«149620_j89807766159535_1_alg».proof.Proof.Gen.Kernel.Skeleton
import proofs.«149620_j89807766159535_1_alg».proof.Proof.Gen.Kernel.Launch
import proofs.«149620_j89807766159535_1_alg».proof.Proof.Gen.Kernel.Points
import proofs.«149620_j89807766159535_1_alg».proof.Proof.Gen.Kernel.Frame
import proofs.«149620_j89807766159535_1_alg».proof.Proof.Gen.KernelIdeal
import proofs.«149620_j89807766159535_1_alg».proof.Proof.Gen.KernelIdeal.Skeleton
import proofs.«149620_j89807766159535_1_alg».proof.Proof.Gen.KernelIdeal.Launch
import proofs.«149620_j89807766159535_1_alg».proof.Proof.Gen.KernelIdeal.Points
import proofs.«149620_j89807766159535_1_alg».proof.Proof.Gen.KernelIdeal.Frame
import proofs.«149620_j89807766159535_1_alg».proof.Proof.Gen.ReferenceIdeal
import proofs.«149620_j89807766159535_1_alg».proof.Proof.Gen.Pre_finite_inputs
import proofs.«149620_j89807766159535_1_alg».proof.Proof.KValue
import proofs.«149620_j89807766159535_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the forward pass of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Result.result_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
